-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128x128 : Shape := ⟨4, ![64, 64, 128, 128]⟩
abbrev S_ : Shape := ⟨0, ![]⟩

class Facts : Prop where
  bcast_S_S64x64x128x128 : S_.BroadcastsInDim S64x64x128x128 (![] : Fin 0 → Fin S64x64x128x128.rank)
  reducesTo_S64x64x128x128_S_d0_1_2_3 : S64x64x128x128.ReducesTo [0, 1, 2, 3] S_
  h_S_ : 0 < S_.numel

variable [Facts]

def fn {F : FTy → Type} [FloatOps F] (main_arg0 : FVec F S64x64x128x128 .f32) : IVec S_ 1 :=
  let main_v0 : FVec F S64x64x128x128 .f32 := Host.absf main_arg0
  let main_cst : FVec F S_ .f32 := constant S_ .f32 0x7F800000#32
  let main_v1 : FVec F S64x64x128x128 .f32 := broadcastInDim S64x64x128x128 ![] bcast_S_S64x64x128x128 main_cst
  let main_v2 : IVec S64x64x128x128 1 := cmpf .olt main_v0 main_v1
  let main_c : IVec S_ 1 := constantI S_ 1 1#1
  let main_v3 : IVec S_ 1 := (fun x v => Host.reduce IntOp.andi x v reducesTo_S64x64x128x128_S_d0_1_2_3 h_S_) main_v2 main_c
  main_v3
-- ==== Kernel.lean ====
abbrev S64x64x128x128 : Shape := ⟨4, ![64, 64, 128, 128]⟩
abbrev S64x1x128x128 : Shape := ⟨4, ![64, 1, 128, 128]⟩
abbrev S1x1x128x128 : Shape := ⟨4, ![1, 1, 128, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S64x64x128x128, .f32⟩
  | .hbm, ⟨1, _⟩ => ⟨S64x64x128x128, .f32⟩
  | .local _ .vmem, ⟨0, _⟩ => ⟨S64x1x128x128, .f32⟩
  | .local _ .vmem, ⟨1, _⟩ => ⟨S64x1x128x128, .f32⟩
  | .local _ .vmem, ⟨2, _⟩ => ⟨S64x1x128x128, .f32⟩
  | .local _ .vmem, ⟨3, _⟩ => ⟨S64x1x128x128, .f32⟩
  | _, _ => ⟨S64x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c1_i32 : BitVec 32 := 1#32
  let c63_i32 : BitVec 32 := 63#32
  let v5 : BitVec 32 := Scalar.addi c1_i32 c63_i32
  let c1_i32_7 : BitVec 32 := 1#32
  ⟨c1_i32, v5, c1_i32_7⟩
def k0_off1 (k0_t1 : Fin k0_t1_loop.trips) : Fin 4 → Nat :=
  let c1_i32 : BitVec 32 := 1#32
  let c1_i32_7 : BitVec 32 := 1#32
  let arg3 : BitVec 32 := Scf.iv c1_i32 c1_i32_7 k0_t1
  let v7 : Index := Scalar.indexCast arg3
  let c0_9 : Index := 0#32
  let c0_10 : Index := 0#32
  let c0_11 : Index := 0#32
  ![v7.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x1x128x128_S1x1x128x128_0_0_0_0 : ∀ a, (![0, 0, 0, 0] : Fin 4 → Nat) a + S1x1x128x128.size a ≤ S64x1x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  hrank0 : 0 < grid0.rank
  k0_t1_ok : k0_t1_loop.OK
  k0_off1_inb : ∀ k0_t1 : Fin k0_t1_loop.trips, ∀ a, (k0_off1 k0_t1) a + S1x1x128x128.size a ≤ S64x1x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x128x128.size a ≤ S64x64x128x128.size a
  hwx0_0 : ∀ i : grid0.Coords, EltTy.bits .f32 = 32 ∨ (Rect.block (s := S64x64x128x128) S64x1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x128x128.size a ≤ S64x64x128x128.size a
  hwx0_1 : ∀ i : grid0.Coords, EltTy.bits .f32 = 32 ∨ (Rect.block (s := S64x64x128x128) S64x1x128x128.size (cc0_transform_1 i) (hinb0_1 i)).WholeWords (EltTy.packing .f32)

variable [Facts₀]

abbrev win0_0 : Pipeline.Window sig grid0 :=
  Pipeline.Window.ofSpec (Memref.whole main_arg0) S64x1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x128x128 : Shape := ⟨4, ![64, 64, 128, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S64x64x128x128, .f32⟩
  | .hbm, ⟨1, _⟩ => ⟨S_, .f32⟩
  | .hbm, ⟨2, _⟩ => ⟨S_, .f32⟩
  | .hbm, ⟨3, _⟩ => ⟨S64x64x128x128, .f32⟩
  | _, _ => ⟨S64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S64x64x128x128_S64x64x128x128_w64s1p63_0_w1s1p0_0_w1s1p0_0_w1s1p0_0 : S64x64x128x128.ReduceWindows (![64, 1, 1, 1] : Fin 4 → Nat) ![1, 1, 1, 1] ![63, 0, 0, 0] ![0, 0, 0, 0] S64x64x128x128
  h_S_ : 0 < S_.numel

variable [Facts₀]

class Facts : Prop extends Facts₀ where

variable [Facts]
-- ==== Proof.RunningMax.lean ====
/-
  The running maximum of a finite sequence in a linear order with a least element, and the one fact that joins the
  two programs: a maximum taken over a sliding window of the sequence PADDED ON THE LEFT WITH THE LEAST ELEMENT, the
  window as long as the sequence, is the maximum of the sequence's entries up to the window's last position.

  `upTo g n` is the greatest of `g 0, …, g n`. It satisfies the recursion a scan computes
  (`upTo g 0 = g 0`, `upTo g (n + 1) = max (upTo g n) (g (n + 1))`), and it is what a left fold of `max` from the least
  element over 64 window positions gives when position `p` of the window ending at `j` holds `g (j + p - 63)` if that
  entry exists and the least element otherwise. Nothing here needs the entries to be finite: `max` is associative,
  commutative and idempotent on every linear order, and the least element is its identity.
-/
import Mathlib.Data.Finset.Lattice.Fold
import Mathlib.Data.Fintype.Basic
import Mathlib.Data.List.FinRange
import Mathlib.Order.Fin.Basic

namespace Cert.RunningMax

variable {α : Type*} [LinearOrder α] [OrderBot α]

/-- The greatest of `g 0, …, g n` (of all of `g` when `n` is past the end). -/
def upTo {N : ℕ} (g : Fin N → α) (n : ℕ) : α :=
  (Finset.univ.filter fun k : Fin N => k.val ≤ n).sup g

/-- Every entry at a position up to `n` is below the running maximum at `n`. -/
theorem le_upTo {N : ℕ} (g : Fin N → α) {n : ℕ} (k : Fin N) (hk : k.val ≤ n) : g k ≤ upTo g n :=
  Finset.le_sup (f := g) (Finset.mem_filter.mpr ⟨Finset.mem_univ k, hk⟩)

/-- The running maximum at `n` is below every bound of the entries up to `n`. -/
theorem upTo_le {N : ℕ} (g : Fin N → α) {n : ℕ} {b : α} (h : ∀ k : Fin N, k.val ≤ n → g k ≤ b) : upTo g n ≤ b :=
  Finset.sup_le fun k hk => h k (Finset.mem_filter.mp hk).2

/-- At the first position the running maximum is the first entry. -/
theorem upTo_zero {N : ℕ} (g : Fin (N + 1) → α) : upTo g 0 = g 0 := by
  refine le_antisymm (upTo_le g fun k hk => ?_) (le_upTo g 0 (Nat.le_refl 0))
  have : k = 0 := Fin.ext (by simpa using Nat.le_zero.mp hk)
  rw [this]

/-- One more position: the running maximum so far against the new entry. -/
theorem upTo_succ {N : ℕ} (g : Fin N → α) (n : ℕ) (h : n + 1 < N) :
    upTo g (n + 1) = max (upTo g n) (g ⟨n + 1, h⟩) := by
  refine le_antisymm (upTo_le g fun k hk => ?_) (max_le (upTo_le g fun k hk => le_upTo g k (Nat.le_succ_of_le hk)) (le_upTo g _ (Nat.le_refl _)))
  rcases Nat.lt_or_ge k.val (n + 1) with hlt | hge
  · exact le_max_of_le_left (le_upTo g k (Nat.lt_succ_iff.mp hlt))
  · have : k = ⟨n + 1, h⟩ := Fin.ext (Nat.le_antisymm hk hge)
    rw [this]; exact le_max_right _ _

/-- A left fold of `max` is above its start and above every term folded in. -/
theorem le_foldl_max {ι : Type*} (h : ι → α) : ∀ (L : List ι) (a : α),
    a ≤ L.foldl (fun r n => max r (h n)) a ∧ ∀ n ∈ L, h n ≤ L.foldl (fun r n => max r (h n)) a
  | [], a => ⟨le_refl a, fun _ hn => absurd hn List.not_mem_nil⟩
  | x :: L, a => by
    obtain ⟨h1, h2⟩ := le_foldl_max h L (max a (h x))
    refine ⟨le_trans (le_max_left _ _) h1, fun n hn => ?_⟩
    rcases List.mem_cons.mp hn with rfl | hn'
    · exact le_trans (le_max_right _ _) h1
    · exact h2 n hn'

/-- A left fold of `max` is below every bound of its start and of the terms folded in. -/
theorem foldl_max_le {ι : Type*} (h : ι → α) {b : α} : ∀ (L : List ι) (a : α), a ≤ b → (∀ n ∈ L, h n ≤ b) →
    L.foldl (fun r n => max r (h n)) a ≤ b
  | [], _, ha, _ => ha
  | x :: L, a, ha, hL =>
    foldl_max_le h L (max a (h x)) (max_le ha (hL x List.mem_cons_self)) fun n hn => hL n (List.mem_cons_of_mem x hn)

/-- THE WINDOW: 64 positions ending at `j` (their number given as an equation, so that a count written as a product
    of extents fits); position `p` holds entry `j + p - 63` of a sequence of 64 entries when
    `63 ≤ j + p` and the least element before that. The fold of `max` over the window from the least element is the
    running maximum at `j`. -/
theorem window_fold {N : ℕ} (hN : N = 64) (g : Fin 64 → α) (j : ℕ) (hj : j < 64) (w : Fin N → α)
    (hin : ∀ (p : Fin N) (k : Fin 64), j + p.val = k.val + 63 → w p = g k) (hpad : ∀ p : Fin N, j + p.val < 63 → w p = ⊥) :
    (List.finRange N).foldl (fun r p => max r (w p)) ⊥ = upTo g j := by
  subst hN
  refine le_antisymm (foldl_max_le w _ _ bot_le fun p _ => ?_) (upTo_le g fun k hk => ?_)
  · rcases Nat.lt_or_ge (j + p.val) 63 with hlt | hge
    · rw [hpad p hlt]; exact bot_le
    · have hp := p.isLt
      rw [hin p ⟨j + p.val - 63, by omega⟩ (by show j + p.val = j + p.val - 63 + 63; omega)]
      exact le_upTo g _ (by show j + p.val - 63 ≤ j; omega)
  · have hk' := k.isLt
    rw [← hin ⟨k.val + 63 - j, by omega⟩ k (by show j + (k.val + 63 - j) = k.val + 63; omega)]
    exact (le_foldl_max w _ _).2 _ (List.mem_finRange _)

end Cert.RunningMax
-- ==== Proof.KernelBlock.lean ====
/-
  What the idealized kernel leaves in its output block at one grid point.

  The body takes one channel's slab `x` of shape [64, 1, 128, 128]. It stores row 0 of `x` as row 0 of the output,
  and then, for r = 1, …, 63, carries `acc ← max acc x[r]` (entrywise on [128, 128]) and stores `acc` as row r. So
  the carried value before trip `n` of the loop is the running maximum of rows 0, …, n, entry by entry, and every
  store — the one before the loop and the one of each trip — writes, at its own row, exactly that running maximum:
  every piece is a restriction of ONE function of the block index,

      block (r, u, p, q) = max over k ≤ r of x (k, u, p, q).

  Stores whose payloads all agree with one function leave that function wherever one of them covers, and the 64
  stores cover the block.
-/
import proofs.«124597_j6837587935357_1_alg».proof.Proof.Gen.KernelIdeal.Frame
import proofs.«124597_j6837587935357_1_alg».proof.Proof.RunningMax
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Cert.RunningMax

/-! ## One trip of the loop, opened once -/

section Trip

variable {F : FTy → Type} [FloatOps F]

/-- What trip `k` yields: the carried value against the row of the input slab it loads. -/
theorem tripR_eq (𝒱 : Variants) (c : Dev nD) (bd : Option 𝒱.V) (i : grid0.Coords)
    (arg1 : Memref sig .tc .vmem S64x1x128x128 .f32) (harg1 : arg1.IsWhole)
    (arg2 : Memref sig .tc .vmem S64x1x128x128 .f32) (harg2 : arg2.IsWhole)
    (X : BufTy.Contents (Elt F) arg1.view.ty) (k : Fin k0_t1_loop.trips) (acc : FVec F S128x128 .f32) :
    tripR_k0_t1 (F := F) 𝒱 c bd i arg1 harg1 arg2 harg2 X k acc
      = k0_pay3 acc (View.readAt (Elt F) arg1.view
          (Rect.unit (s := S64x1x128x128) (k0_off1 k) S1x1x128x128.size (k0_off1_inb k)).toLoadRect X) := by
  unfold tripR_k0_t1 trip_k0_t1
  rfl

/-- What trip `k` stores: one piece, at the trip's row, of the same value laid out as a [1, 1, 128, 128] row. -/
theorem tripL_eq (𝒱 : Variants) (c : Dev nD) (bd : Option 𝒱.V) (i : grid0.Coords)
    (arg1 : Memref sig .tc .vmem S64x1x128x128 .f32) (harg1 : arg1.IsWhole)
    (arg2 : Memref sig .tc .vmem S64x1x128x128 .f32) (harg2 : arg2.IsWhole)
    (X : BufTy.Contents (Elt F) arg1.view.ty) (k : Fin k0_t1_loop.trips) (acc : FVec F S128x128 .f32) :
    tripL_k0_t1 (F := F) 𝒱 c bd i arg1 harg1 arg2 harg2 X k acc
      = [(⟨Rect.unit (s := S64x1x128x128) (k0_off1 k) S1x1x128x128.size (k0_off1_inb k),
          k0_pay4 acc (View.readAt (Elt F) arg1.view
            (Rect.unit (s := S64x1x128x128) (k0_off1 k) S1x1x128x128.size (k0_off1_inb k)).toLoadRect X)⟩ :
          View.Piece (Elt F) S64x1x128x128 .f32)] := by
  unfold tripL_k0_t1 trip_k0_t1
  rfl

end Trip

/-! ## Layout: a [1, 1, a, b] row and the [a, b] matrix it holds -/

/-- A [1, 1, a, b] array cast to [a, b] reads, at (p, q), the operand at (0, 0, p, q). -/
theorem cast_row_to_mat {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] array cast to [1, 1, a, b] reads, at (u, u', p, q), the operand at (p, q). -/
theorem cast_mat_to_row {α : Type} {a b : ℕ} (x : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ x h (ix4 u u' p q) = x (ix2 p q) :=
  shapeCast_apply x h _ _ (by
    have hu : u.val = 0 := by omega
    have hu' : u'.val = 0 := by omega
    rw [Shape.rowMajor_val_four, Shape.rowMajor_val_two]
    show p.val * b + q.val = ((u.val * 1 + u'.val) * a + p.val) * b + q.val
    rw [hu, hu']; simp only [Nat.zero_mul, Nat.zero_add])

/-! ## The four payloads at an index, at the ideal instance -/

/-- The loop's initial carried value: row 0 as a matrix. -/
theorem pay1_apply (v : Vec Ideal S1x1x128x128 .f32) (p q : Fin 128) :
    k0_pay1 (F := Ideal) v (ix2 p q) = v (ix4 (0 : Fin 1) (0 : Fin 1) p q) := by
  unfold k0_pay1
  exact cast_row_to_mat v _ p q

/-- The store before the loop: row 0 as it was loaded. -/
theorem pay2_apply (v : Vec Ideal S1x1x128x128 .f32) (u u' : Fin 1) (p q : Fin 128) :
    k0_pay2 (F := Ideal) v (ix4 u u' p q) = v (ix4 (0 : Fin 1) (0 : Fin 1) p q) := by
  unfold k0_pay2
  exact (cast_mat_to_row _ _ u u' p q).trans (pay1_apply v p q)

/-- A trip's yield: the carried value against the loaded row, entry by entry. -/
theorem pay3_apply (acc : FVec Ideal S128x128 .f32) (v : Vec Ideal S1x1x128x128 .f32) (p q : Fin 128) :
    k0_pay3 (F := Ideal) acc v (ix2 p q) = max (acc (ix2 p q)) (v (ix4 (0 : Fin 1) (0 : Fin 1) p q)) := by
  unfold k0_pay3
  exact (maximumf_apply _ _ _).trans (congrArg (max (acc (ix2 p q))) (cast_row_to_mat v _ p q))

/-- A trip's store: its yield as a row. -/
theorem pay4_apply (acc : FVec Ideal S128x128 .f32) (v : Vec Ideal S1x1x128x128 .f32) (u u' : Fin 1) (p q : Fin 128) :
    k0_pay4 (F := Ideal) acc v (ix4 u u' p q) = max (acc (ix2 p q)) (v (ix4 (0 : Fin 1) (0 : Fin 1) p q)) := by
  unfold k0_pay4
  exact (cast_mat_to_row _ _ u u' p q).trans (pay3_apply acc v p q)

/-! ## A row of the slab, loaded -/

/-- The one-row rectangle at row `r` of the slab, embedded: local index (u, u', p, q) sits at (r, 0, p, q). -/
theorem row_emb (off : Fin 4 → Nat) (inb : ∀ a, off a + S1x1x128x128.size a ≤ S64x1x128x128.size a)
    (r : Fin 64) (hoff : off = ![r.val, 0, 0, 0]) (u u' : Fin 1) (p q : Fin 128) :
    (Rect.unit (s := S64x1x128x128) off S1x1x128x128.size inb).emb (ix4 u u' p q) = ix4 r (0 : Fin 1) p q := by
  subst hoff
  have hu : u.val = 0 := by omega
  have hu' : u'.val = 0 := by omega
  funext a; apply Fin.ext
  match a with
  | ⟨0, _⟩ => show r.val + 1 * u.val = r.val; omega
  | ⟨1, _⟩ => show 0 + 1 * u'.val = 0; omega
  | ⟨2, _⟩ => show 0 + 1 * p.val = p.val; omega
  | ⟨3, _⟩ => show 0 + 1 * q.val = q.val; omega

/-- A load through it reads the slab's row `r`. -/
theorem ld_row (x : Vec Ideal S64x1x128x128 .f32) (off : Fin 4 → Nat)
    (inb : ∀ a, off a + S1x1x128x128.size a ≤ S64x1x128x128.size a)
    (r : Fin 64) (hoff : off = ![r.val, 0, 0, 0]) (u u' : Fin 1) (p q : Fin 128) :
    View.ld x (Rect.unit (s := S64x1x128x128) off S1x1x128x128.size inb) (ix4 u u' p q) = x (ix4 r (0 : Fin 1) p q) := by
  show x ((Rect.unit (s := S64x1x128x128) off S1x1x128x128.size inb).emb (ix4 u u' p q)) = _
  rw [row_emb off inb r hoff]

/-! ## The block as one function, and the loop's invariant -/

/-- THE BLOCK: entry (r, u, p, q) is the greatest of the slab's entries (0, u, p, q), …, (r, u, p, q). -/
def scan (x : Vec Ideal S64x1x128x128 .f32) : Vec Ideal S64x1x128x128 .f32 :=
  fun y => upTo (fun k : Fin 64 => x (ix4 k (y 1) (y 2) (y 3))) (y 0).val

theorem scan_apply (x : Vec Ideal S64x1x128x128 .f32) (r : Fin 64) (u : Fin 1) (p q : Fin 128) :
    scan x (ix4 r u p q) = upTo (fun k : Fin 64 => x (ix4 k u p q)) r.val := rfl

theorem hz4 : (![0, 0, 0, 0] : Fin 4 → Nat) = ![(0 : Fin 64).val, 0, 0, 0] := rfl

section Run

variable (c : Dev nD) (i : grid0.Coords)
  (arg1 : Memref sig .tc .vmem S64x1x128x128 .f32) (harg1 : arg1.IsWhole)
  (arg2 : Memref sig .tc .vmem S64x1x128x128 .f32) (harg2 : arg2.IsWhole)
  (x : Vec Ideal S64x1x128x128 .f32)

/-- Row 0 of the slab as the body loads it before the loop. -/
abbrev first : Vec Ideal S1x1x128x128 .f32 :=
  View.readAt (Elt Ideal) arg1.view
    (Rect.unit (s := S64x1x128x128) ![0, 0, 0, 0] S1x1x128x128.size inb_S64x1x128x128_S1x1x128x128_0_0_0_0).toLoadRect
    (harg1.unread x)

/-- It reads the slab's row 0. -/
theorem first_apply (u u' : Fin 1) (p q : Fin 128) :
    first arg1 harg1 x (ix4 u u' p q) = x (ix4 (0 : Fin 64) (0 : Fin 1) p q) := by
  show View.readAt (Elt Ideal) arg1.view
    (Rect.unit (s := S64x1x128x128) ![0, 0, 0, 0] S1x1x128x128.size inb_S64x1x128x128_S1x1x128x128_0_0_0_0).toLoadRect
    (harg1.unread x) (ix4 u u' p q) = _
  rw [View.readAt_eq_ld, harg1.read_unread, ld_row x _ _ 0 hz4]

/-- The loop's state before trip `n`: the carried value and the pieces stored so far. -/
abbrev state (n : ℕ) : FVec Ideal S128x128 .f32 × List (View.Piece (Elt Ideal) S64x1x128x128 .f32) :=
  st_k0_t1 (F := Ideal) Variants.none c none i arg1 harg1 arg2 harg2 (harg1.unread x)
    (k0_pay1 (first arg1 harg1 x)) n

/-- THE INVARIANT, by induction on the trip: before trip `n` the carried value is the running maximum of rows
    0, …, n, and every piece stored so far is a restriction of `scan x`. -/
theorem state_inv : ∀ n : ℕ, n ≤ k0_t1_loop.trips →
    (∀ p q : Fin 128, (state c i arg1 harg1 arg2 harg2 x n).1 (ix2 p q) = upTo (fun k : Fin 64 => x (ix4 k (0 : Fin 1) p q)) n)
    ∧ ∀ pc ∈ (state c i arg1 harg1 arg2 harg2 x n).2, ∀ y : pc.1.shape.Idx, pc.2 y = scan x (pc.1.emb y)
  | 0, _ => by
    refine ⟨fun p q => ?_, fun pc hpc => absurd hpc List.not_mem_nil⟩
    show k0_pay1 (F := Ideal) (first arg1 harg1 x) (ix2 p q) = _
    rw [pay1_apply, first_apply, upTo_zero]
  | n + 1, hn => by
    have htr : k0_t1_loop.trips ≤ 63 := k0_t1_abs.2.1
    obtain ⟨ih1, ih2⟩ := state_inv n (Nat.le_of_succ_le hn)
    have hoff := k0_off1_eq ⟨n, hn⟩
    have hrow : k0_off1 ⟨n, hn⟩ = ![(⟨n + 1, by omega⟩ : Fin 64).val, 0, 0, 0] := hoff
    have hst := st_k0_t1_succ (F := Ideal) Variants.none c none i arg1 harg1 arg2 harg2 (harg1.unread x)
      (k0_pay1 (first arg1 harg1 x)) ⟨n, hn⟩
    refine ⟨fun p q => ?_, fun pc hpc y => ?_⟩
    · show (st_k0_t1 (F := Ideal) Variants.none c none i arg1 harg1 arg2 harg2 (harg1.unread x) (k0_pay1 (first arg1 harg1 x)) (n + 1)).1 (ix2 p q) = _
      rw [hst]; dsimp only
      rw [tripR_eq, pay3_apply, View.readAt_eq_ld, harg1.read_unread, ld_row x _ _ ⟨n + 1, by omega⟩ hrow,
        upTo_succ _ n (by omega)]
      exact congrArg (fun z => max z _) (ih1 p q)
    · have hpc' : pc ∈ (st_k0_t1 (F := Ideal) Variants.none c none i arg1 harg1 arg2 harg2 (harg1.unread x) (k0_pay1 (first arg1 harg1 x)) (n + 1)).2 := hpc
      rw [hst] at hpc'; dsimp only at hpc'
      rw [tripL_eq] at hpc'
      rcases List.mem_append.mp hpc' with h1 | h2
      · obtain rfl := List.mem_singleton.mp h1
        obtain ⟨u, u', p, q, rfl⟩ : ∃ (u u' : Fin 1) (p q : Fin 128), y = ix4 u u' p q := ⟨y 0, y 1, y 2, y 3, eq_ix4 y⟩
        show k0_pay4 (F := Ideal) _ _ (ix4 u u' p q) = scan x ((Rect.unit (s := S64x1x128x128) (k0_off1 ⟨n, hn⟩) S1x1x128x128.size (k0_off1_inb ⟨n, hn⟩)).emb (ix4 u u' p q))
        rw [pay4_apply, View.readAt_eq_ld, harg1.read_unread, ld_row x _ _ ⟨n + 1, by omega⟩ hrow,
          row_emb _ _ ⟨n + 1, by omega⟩ hrow, scan_apply, upTo_succ _ n (by omega)]
        exact congrArg (fun z => max z _) (ih1 p q)
      · exact ih2 pc h2 y

/-- THE BLOCK the body leaves: `scan` of the slab. -/
theorem out_eq_scan : out0_A_1 (F := Ideal) c i arg1 harg1 arg2 harg2 x = scan x := by
  unfold out0_A_1
  rw [View.read_writes_eq_canon _ _ _ (cover0_A_1 c i arg1 harg1 arg2 harg2 x)]
  funext y
  refine View.canon_apply_of_pieces (scan x) _ (fun pc hpc z => ?_) y (cover0_A_1 c i arg1 harg1 arg2 harg2 x y)
  have hpc' : pc ∈ (state c i arg1 harg1 arg2 harg2 x k0_t1_loop.trips).2 ++
      [(⟨Rect.unit (s := S64x1x128x128) ![0, 0, 0, 0] S1x1x128x128.size inb_S64x1x128x128_S1x1x128x128_0_0_0_0,
          k0_pay2 (first arg1 harg1 x)⟩ : View.Piece (Elt Ideal) S64x1x128x128 .f32)] := hpc
  rcases List.mem_append.mp hpc' with h1 | h2
  · exact (state_inv c i arg1 harg1 arg2 harg2 x _ (Nat.le_refl _)).2 pc h1 z
  · obtain rfl := List.mem_singleton.mp h2
    obtain ⟨u, u', p, q, rfl⟩ : ∃ (u u' : Fin 1) (p q : Fin 128), z = ix4 u u' p q := ⟨z 0, z 1, z 2, z 3, eq_ix4 z⟩
    show k0_pay2 (F := Ideal) (first arg1 harg1 x) (ix4 u u' p q) = scan x ((Rect.unit (s := S64x1x128x128) ![0, 0, 0, 0] S1x1x128x128.size inb_S64x1x128x128_S1x1x128x128_0_0_0_0).emb (ix4 u u' p q))
    rw [pay2_apply, first_apply, row_emb _ _ 0 hz4, scan_apply]
    exact (upTo_zero (fun k : Fin 64 => x (ix4 k (0 : Fin 1) p q))).symm

end Run

end Cert.KernelIdeal.Block

end
-- ==== Proof.Spec.lean ====
/-
  The function both programs compute: the cumulative maximum along axis 0 of an array x : [64, 64, 128, 128] of
  extended reals,

      cummax x (n, c, h, w) = max over k ≤ n of x (k, c, h, w).
-/
import proofs.«124597_j6837587935357_1_alg».proof.Proof.RunningMax
import Idealize.ShloMosaic.Lib.ValueIdx

noncomputable section

namespace Cert.Spec

open Idealize.ShloMosaic Idealize.ShloMosaic.ValueIdx Cert.RunningMax

/-- Entry (n, c, h, w) is the greatest of x (0, c, h, w), …, x (n, c, h, w). -/
def cummax (X : (⟨4, ![64, 64, 128, 128]⟩ : Shape).Idx → EReal) : (⟨4, ![64, 64, 128, 128]⟩ : Shape).Idx → EReal :=
  fun i => upTo (fun k : Fin 64 => X (ix4 k (i 1) (i 2) (i 3))) (i 0).val

end Cert.Spec

end
-- ==== Proof.KernelArray.lean ====
/-
  From blocks to the array: what the idealized kernel's result array holds after the run.

  Grid point t stages channel t of the argument — the slab x (·, t, ·, ·) of shape [64, 1, 128, 128] — and writes
  back, as channel t of the result, the running maximum of that slab along its first axis. The 64 channels tile
  the array, and the running maximum along axis 0 never looks outside its own channel, so the array ends holding the
  cumulative maximum of the argument along axis 0.
-/
import proofs.«124597_j6837587935357_1_alg».proof.Proof.Gen.KernelIdeal.Value
import proofs.«124597_j6837587935357_1_alg».proof.Proof.KernelBlock
import proofs.«124597_j6837587935357_1_alg».proof.Proof.Spec

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.RunningMax Cert.KernelIdeal.Block Cert.Spec

variable (m : (ℓ : Loc nD τ sig) → Buf (Elt Ideal) ℓ) (ρ : Dev nD → PrngReg)

/-- The argument array as the region finds it, at its literal type. -/
abbrev xarr (c : Dev nD) : S64x64x128x128.Idx → Ideal .f32 := V m c main_arg0

/-- The input block at point `t`, at its literal type. -/
abbrev xblk (c : Dev nD) (t : Fin cfg0.N) : Vec Ideal S64x1x128x128 .f32 := iblk m c 0 t

/-- The printed index maps, decided over the grid: both windows' block at point `t` is channel `t`, whole on the
    other axes. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)

/-- The running maximum of a slab that is one channel of an array is that channel of the array's cumulative
    maximum. -/
theorem scan_channel (X : S64x64x128x128.Idx → Ideal .f32) (B : Vec Ideal S64x1x128x128 .f32) (ch : Fin 64)
    (hB : ∀ (k : Fin 64) (u : Fin 1) (p q : Fin 128), B (ix4 k u p q) = X (ix4 k ch p q))
    (j : S64x1x128x128.Idx) (e : S64x64x128x128.Idx) (he : e = ix4 (j 0) ch (j 2) (j 3)) :
    scan B j = cummax X e := by
  subst he
  show upTo (fun k : Fin 64 => B (ix4 k (j 1) (j 2) (j 3))) (j 0).val = upTo (fun k : Fin 64 => X (ix4 k ch (j 2) (j 3))) (j 0).val
  exact congrArg (fun g => upTo g (j 0).val) (funext fun k => hB k (j 1) (j 2) (j 3))

/-- WHAT POINT `t` WRITES BACK is block `t` of the cumulative maximum of the argument array. -/
theorem flushed_eq (c : Dev nD) (t : Fin cfg0.N) :
    (dats m 0 c).flushed 1 t = ((cfg0.win 1).blk t).view.read (Elt Ideal) (cummax (xarr m c)) := by
  have hN : cfg0.N = 64 := N_0
  have ht : t.val < 64 := by have := t.isLt; omega
  obtain ⟨a0, a1, a2, a3, b0, b1, b2, b3⟩ := idx_facts t
  rw [Value.flushed1_A]
  refine (congrArg ((cfg0.win 1).cut (grid0.coords t))
    (out_eq_scan c (grid0.coords t) (ms0_0 t) (hs0_0 t) (ms0_1 t) (hs0_1 t) (xblk m c t))).trans ?_
  funext j
  show scan (xblk m c t) j = cummax (xarr m c) (((cfg0.win 1).blk t).view.emb j)
  refine scan_channel (xarr m c) (xblk m c t) ⟨t.val, ht⟩ (fun k u p q => ?_) j _ ?_
  · show V m c main_arg0 (((cfg0.win 0).blk t).view.emb (ix4 k u p q)) = V m c main_arg0 (ix4 k ⟨t.val, ht⟩ p q)
    refine congrArg (V m c main_arg0) ?_
    have hu : u.val = 0 := by omega
    funext a; apply Fin.ext
    match a with
    | ⟨0, _⟩ => show win0_0.index t (0 : Fin 4) * 64 + 1 * k.val = k.val; omega
    | ⟨1, _⟩ => show win0_0.index t (1 : Fin 4) * 1 + 1 * u.val = t.val; omega
    | ⟨2, _⟩ => show win0_0.index t (2 : Fin 4) * 128 + 1 * p.val = p.val; omega
    | ⟨3, _⟩ => show win0_0.index t (3 : Fin 4) * 128 + 1 * q.val = q.val; omega
  · have hj1 : (j 1).val < 1 := (j 1).isLt
    funext a; apply Fin.ext
    match a with
    | ⟨0, _⟩ => show win0_1.index t (0 : Fin 4) * 64 + 1 * (j 0).val = (j 0).val; omega
    | ⟨1, _⟩ => show win0_1.index t (1 : Fin 4) * 1 + 1 * (j 1).val = t.val; omega
    | ⟨2, _⟩ => show win0_1.index t (2 : Fin 4) * 128 + 1 * (j 2).val = (j 2).val; omega
    | ⟨3, _⟩ => show win0_1.index t (3 : Fin 4) * 128 + 1 * (j 3).val = (j 3).val; omega

/-- An index of the array is in point `t`'s block iff each coordinate is in the block's range on its axis. -/
theorem mem_blk (t : Fin cfg0.N) (i : S64x64x128x128.Idx) :
    i ∈ ((cfg0.win 1).blk t).view.set ↔ ∀ a : Fin 4, win0_1.index t a * S64x1x128x128.size a ≤ (i a).val
      ∧ (i a).val < win0_1.index t a * S64x1x128x128.size a + S64x1x128x128.size a := by
  show i ∈ ((View.whole main_v0).slice (win0_1.rect t)).set ↔ _
  rw [View.set_slice_whole, Rect.mem_set_unit]
  exact Iff.rfl

/-- Every index of the array is in the block of the point its channel names. -/
theorem cover (i : S64x64x128x128.Idx) :
    ∃ t : Fin cfg0.N, (cfg0.win 1).flush t = true ∧ i ∈ ((cfg0.win 1).blk t).view.set := by
  have hN : cfg0.N = 64 := N_0
  have hi0 : (i 0).val < 64 := (i 0).isLt
  have hi1 : (i 1).val < 64 := (i 1).isLt
  have hi2 : (i 2).val < 128 := (i 2).isLt
  have hi3 : (i 3).val < 128 := (i 3).isLt
  refine ⟨⟨(i 1).val, by omega⟩, flush0_1 _, ?_⟩
  obtain ⟨-, -, -, -, b0, b1, b2, b3⟩ := idx_facts ⟨(i 1).val, by omega⟩
  rw [mem_blk]
  intro a
  match a with
  | ⟨0, _⟩ => show win0_1.index _ (0 : Fin 4) * 64 ≤ (i 0).val ∧ (i 0).val < win0_1.index _ (0 : Fin 4) * 64 + 64; rw [b0]; omega
  | ⟨1, _⟩ => show win0_1.index _ (1 : Fin 4) * 1 ≤ (i 1).val ∧ (i 1).val < win0_1.index _ (1 : Fin 4) * 1 + 1; rw [b1]; dsimp only; omega
  | ⟨2, _⟩ => show win0_1.index _ (2 : Fin 4) * 128 ≤ (i 2).val ∧ (i 2).val < win0_1.index _ (2 : Fin 4) * 128 + 128; rw [b2]; omega
  | ⟨3, _⟩ => show win0_1.index _ (3 : Fin 4) * 128 ≤ (i 3).val ∧ (i 3).val < win0_1.index _ (3 : Fin 4) * 128 + 128; rw [b3]; omega

/-- THE ARRAY after the run: the cumulative maximum of the argument array. -/
theorem final (c : Dev nD) : (dats m 0 c).arrAt 1 cfg0.N = cummax (m ((c : Thread nD τ).loc main_arg0)) :=
  (dats m 0 c).arrAt_eq_of_cover 1 (cummax (xarr m c)) (fun t _ => flushed_eq m c t) cover

/-- The run, read: the result array at the cumulative maximum of the argument, the argument unchanged. -/
theorem run : θ_run defs (onTc (τ := τ) (main (F := Ideal))) ⟨m, fun _ => 0, ρ⟩ fun r => ∀ c : Dev nD,
      r.2.mem ((c : Thread nD τ).loc main_v0) = cummax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Array

end
-- ==== Proof.RefValue.lean ====
/-
  The reference's result at an index.

  The reference is one windowed reduction along axis 0 of x : [64, 64, 128, 128]: a window of 64 positions, stride 1,
  63 positions of padding before row 0, the reducer `max`, the padding and the starting value both the word of −∞. At
  the ideal instance that word is the least extended real, so entry (n, c, h, w) of the result is the fold of `max` from
  the least element over positions p = 0, …, 63, position p holding x (n + p − 63, c, h, w) when 63 ≤ n + p and the least
  element before that: the greatest of x (0, c, h, w), …, x (n, c, h, w).
-/
import proofs.«124597_j6837587935357_1_alg».proof.Proof.Gen.ReferenceIdeal.Read
import proofs.«124597_j6837587935357_1_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx Cert.RunningMax

/-- The padding (and the fold's start) is the least extended real: the word of −∞ read at the ideal instance. -/
theorem pad_eq_bot : Read.val_main_call0_v0 (F := Ideal) (Shape.Idx.first h_S_) = (⊥ : EReal) := by
  rw [Read.val_main_call0_v0_apply, Read.val_main_call0_cst_apply]
  show Ideal.ofBits .f32 0xFF800000#32 = ⊥
  simp [Ideal.ofBits, Ideal.ieee]

/-- The window's own index space: 64 positions along axis 0, one along each other axis. -/
abbrev Win : Shape := ⟨4, ![64, 1, 1, 1]⟩

theorem win_numel : Win.numel = 64 := by decide

/-- Position `n` of the window in row-major order is (n, 0, 0, 0). -/
theorem win_pos (n : Fin Win.numel) :
    (Win.rowMajor.symm n 0).val = n.val ∧ (Win.rowMajor.symm n 1).val = 0
      ∧ (Win.rowMajor.symm n 2).val = 0 ∧ (Win.rowMajor.symm n 3).val = 0 := by
  have h := Shape.rowMajor_val_four (d := ![64, 1, 1, 1]) (Win.rowMajor.symm n)
  rw [Equiv.apply_symm_apply] at h
  have h1 : (Win.rowMajor.symm n 1).val < 1 := (Win.rowMajor.symm n 1).isLt
  have h2 : (Win.rowMajor.symm n 2).val < 1 := (Win.rowMajor.symm n 2).isLt
  have h3 : (Win.rowMajor.symm n 3).val < 1 := (Win.rowMajor.symm n 3).isLt
  have h' : n.val = (((Win.rowMajor.symm n 0).val * 1 + (Win.rowMajor.symm n 1).val) * 1
      + (Win.rowMajor.symm n 2).val) * 1 + (Win.rowMajor.symm n 3).val := h
  omega

/-- THE REFERENCE AT AN INDEX: the running maximum along axis 0. -/
theorem ref_apply (X : S64x64x128x128.Idx → Ideal .f32) (i : S64x64x128x128.Idx) :
    Read.val_main_v0 (F := Ideal) X i = upTo (fun k : Fin 64 => X (ix4 k (i 1) (i 2) (i 3))) (i 0).val := by
  have hi0 : (i 0).val < 64 := (i 0).isLt
  unfold Read.val_main_v0 Host.reduceWindow
  dsimp only
  rw [pad_eq_bot]
  refine window_fold win_numel (fun k : Fin 64 => X (ix4 k (i 1) (i 2) (i 3))) (i 0).val hi0 _ (fun n k hnk => ?_) (fun n hn => ?_)
  · obtain ⟨p0, p1, p2, p3⟩ := win_pos n
    have hk : k.val < 64 := k.isLt
    rw [dif_pos]
    · congr 1; funext a; apply Fin.ext
      match a with
      | ⟨0, _⟩ => show (i 0).val * 1 + (Win.rowMajor.symm n 0).val - 63 = k.val; omega
      | ⟨1, _⟩ => show (i 1).val * 1 + (Win.rowMajor.symm n 1).val - 0 = (i 1).val; omega
      | ⟨2, _⟩ => show (i 2).val * 1 + (Win.rowMajor.symm n 2).val - 0 = (i 2).val; omega
      | ⟨3, _⟩ => show (i 3).val * 1 + (Win.rowMajor.symm n 3).val - 0 = (i 3).val; omega
    · intro a
      have hi1 : (i 1).val < 64 := (i 1).isLt
      have hi2 : (i 2).val < 128 := (i 2).isLt
      have hi3 : (i 3).val < 128 := (i 3).isLt
      match a with
      | ⟨0, _⟩ => show 63 ≤ (i 0).val * 1 + (Win.rowMajor.symm n 0).val ∧ (i 0).val * 1 + (Win.rowMajor.symm n 0).val - 63 < 64; omega
      | ⟨1, _⟩ => show 0 ≤ (i 1).val * 1 + (Win.rowMajor.symm n 1).val ∧ (i 1).val * 1 + (Win.rowMajor.symm n 1).val - 0 < 64; omega
      | ⟨2, _⟩ => show 0 ≤ (i 2).val * 1 + (Win.rowMajor.symm n 2).val ∧ (i 2).val * 1 + (Win.rowMajor.symm n 2).val - 0 < 128; omega
      | ⟨3, _⟩ => show 0 ≤ (i 3).val * 1 + (Win.rowMajor.symm n 3).val ∧ (i 3).val * 1 + (Win.rowMajor.symm n 3).val - 0 < 128; omega
  · obtain ⟨p0, -, -, -⟩ := win_pos n
    rw [dif_neg]
    intro hc
    have h0 : 63 ≤ (i 0).val * 1 + (Win.rowMajor.symm n 0).val := (hc 0).1
    omega

/-- So the reference's result is the cumulative maximum of its argument. -/
theorem ref_eq (X : S64x64x128x128.Idx → Ideal .f32) : Read.val_main_v0 (F := Ideal) X = Cert.Spec.cummax X :=
  funext (ref_apply X)

end Cert.ReferenceIdeal.RefValue

end
-- ==== Proof.lean ====
/-
  The kernel — a cumulative maximum along axis 0 of x : f32[64, 64, 128, 128], one channel per grid point, a carried
  running maximum stored row by row — against `lax.cummax(x, axis=0)`, which lowers to one windowed `max`-reduction
  with 63 positions of −∞ padding before row 0.

  At the ideal instance both are the same function of the argument,

      result (n, c, h, w) = max over k ≤ n of x (k, c, h, w)        (Proof/Spec.lean, `cummax`):

  * the kernel's block at a point is the running maximum of its slab, by induction over the loop's trips
    (Proof/KernelBlock.lean), and the 64 channel blocks tile the array (Proof/KernelArray.lean);
  * the reference's fold over a window padded with the least extended real is the maximum over the rows up to
    the window's end (Proof/RefValue.lean, over Proof/RunningMax.lean).

  The only laws used are those of `max` on a linear order with a least element; they hold at ±∞ too, so the
  precondition (finite inputs) is never opened. The ideal pass rewrote nothing, so `preserves` is `True`. The two
  kernel frames are the generated ones; the reference's frame is its generated run with the result dropped.
-/
import proofs.«124597_j6837587935357_1_alg».proof.Defs
import proofs.«124597_j6837587935357_1_alg».proof.Proof.Gen.Kernel
import proofs.«124597_j6837587935357_1_alg».proof.Proof.Gen.Kernel.Frame
import proofs.«124597_j6837587935357_1_alg».proof.Proof.Gen.KernelIdeal
import proofs.«124597_j6837587935357_1_alg».proof.Proof.Gen.KernelIdeal.Frame
import proofs.«124597_j6837587935357_1_alg».proof.Proof.Gen.KernelIdeal.Value
import proofs.«124597_j6837587935357_1_alg».proof.Proof.Gen.ReferenceIdeal
import proofs.«124597_j6837587935357_1_alg».proof.Proof.Gen.ReferenceIdeal.Run
import proofs.«124597_j6837587935357_1_alg».proof.Proof.Gen.ReferenceIdeal.Read
import proofs.«124597_j6837587935357_1_alg».proof.Proof.Gen.Pre_finite_inputs
import proofs.«124597_j6837587935357_1_alg».proof.Proof.KernelArray
import proofs.«124597_j6837587935357_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the cumulative maximum of the (agreeing) arguments. -/
theorem algebraic : Cert.algebraic_KernelIdeal_ReferenceIdeal := by
  intro m ρ m' ρ' _ hagree
  refine ⟨fun c => Cert.Spec.cummax (m ((c.tc : Thread Cert.KernelIdeal.nD Cert.KernelIdeal.τ).loc Cert.KernelIdeal.main_arg0)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
